-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S64x2048 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S64 : Shape := ⟨1, ![64]⟩
abbrev S1x64 : Shape := ⟨2, ![1, 64]⟩
abbrev S64x16384 : Shape := ⟨2, ![64, 16384]⟩
abbrev S16384x64 : Shape := ⟨2, ![16384, 64]⟩
abbrev S1024x2048 : Shape := ⟨2, ![1024, 2048]⟩
abbrev S64x1 : Shape := ⟨2, ![64, 1]⟩
abbrev S64x1024 : Shape := ⟨2, ![64, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S1x64, .f32⟩
  | .hbm, ⟨4, _⟩ => ⟨S64x16384, .f32⟩
  | .hbm, ⟨5, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S1x64, .f32⟩
  | .local _ .vmem, ⟨6, _⟩ => ⟨S64x2048, .f32⟩
  | .local _ .vmem, ⟨7, _⟩ => ⟨S64x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  transposes_S64x16384_S16384x64_1_0 : S64x16384.Transposes [1, 0] S16384x64
  inb_S64x2048_S64x2048_0_0 : ∀ a, (![0, 0] : Fin 2 → Nat) a + S64x2048.size a ≤ S64x2048.size a
  h_S64x2048 : 0 < S64x2048.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  inb_S1024x2048_S1024x2048_0_0 : ∀ a, (![0, 0] : Fin 2 → Nat) a + S1024x2048.size a ≤ S1024x2048.size a
  h_S1024x2048 : 0 < S1024x2048.numel
  broadcasts_S64x1_S64x1024 : S64x1.Broadcasts S64x1024
  inb_S64x2048_S64x1024_0_0 : ∀ a, (![0, 0] : Fin 2 → Nat) a + S64x1024.size a ≤ S64x2048.size a
  h_S64x1024 : 0 < S64x1024.numel
  inb_S64x2048_S64x1024_0_1024 : ∀ a, (![0, 1024] : Fin 2 → Nat) a + S64x1024.size a ≤ S64x2048.size a
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S64x16384.size a
  hwx0_4 : ∀ i : grid0.Coords, EltTy.bits .f32 = 32 ∨ (Rect.block (s := S64x16384) S64x2048.size (cc0_transform_4 i) (hinb0_4 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384x64, .f32⟩
  | .hbm, ⟨10, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.KBody.lean ====
/-
  The kernel body, run once on whole staging buffers. It reads the expert matrix, the bias row and the two token blocks, and writes the output
  block in two halves: columns 0..1023 hold the products of the expert rows with the first token block's rows, columns 1024..2047 those with
  the second token block's rows, each plus the bias of the row's expert. The output buffer's earlier contents are read and dropped.
-/
import proofs.«168332_g73478300500023_cont_9to1_m_1377_26_alg».proof.Proof.Gen.Kernel.Skeleton
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole expert block, the whole bias row, a whole token block. -/
abbrev rW : Rect S64x2048 := Rect.unit (s := S64x2048) ![0, 0] S64x2048.size inb_S64x2048_S64x2048_0_0
abbrev rB : Rect S1x64 := Rect.unit (s := S1x64) ![0, 0] S1x64.size inb_S1x64_S1x64_0_0
abbrev rX : Rect S1024x2048 := Rect.unit (s := S1024x2048) ![0, 0] S1024x2048.size inb_S1024x2048_S1024x2048_0_0
/-- The left and the right half of the output block. -/
abbrev rLo : Rect S64x2048 := Rect.unit (s := S64x2048) ![0, 0] S64x1024.size inb_S64x2048_S64x1024_0_0
abbrev rHi : Rect S64x2048 := Rect.unit (s := S64x2048) ![0, 1024] S64x1024.size inb_S64x2048_S64x1024_0_1024

/-- What the body leaves in the output block, from the two token blocks, the expert block and the bias row: the right half
    written last, the left half first. -/
def outBlk (xa xb : Vec F S1024x2048 .f32) (w : Vec F S64x2048 .f32) (b : Vec F S1x64 .f32) : Vec F S64x2048 .f32 :=
  View.canon [⟨rHi, k0_pay3 (View.ld w rW) (View.ld b rB) (View.ld xb rX)⟩, ⟨rLo, k0_pay2 (View.ld w rW) (View.ld b rB) (View.ld xa rX)⟩]

/-- The two halves tile the block. -/
theorem cover_out (p0 p1 : Vec F S64x1024 .f32) (y : S64x2048.Idx) :
    ∃ pc ∈ ([⟨rHi, p0⟩, ⟨rLo, p1⟩] : List (View.Piece (Elt F) S64x2048 .f32)), y ∈ pc.1.set :=
  View.cover_of_tiled [⟨rHi, p0⟩, ⟨rLo, p1⟩] S64x1024.size (by rfl) y

set_option maxHeartbeats 1000000 in
/-- The body on whole staging memrefs, the four inputs' at read contents and the output's at anything, runs to the
    continuation with the inputs' as they were and the output's at `outBlk` of them. -/
theorem sound_kernel (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S64x2048 .f32) (harg3 : arg3.IsWhole) (arg4 : Memref sig .tc .vmem S1x64 .f32) (harg4 : arg4.IsWhole)
    (arg5 : Memref sig .tc .vmem S64x2048 .f32) (harg5 : arg5.IsWhole)
    (xa xb : Vec F S1024x2048 .f32) (w : Vec F S64x2048 .f32) (b : Vec F S1x64 .f32) (K : PUnit → sProp 𝕄) :
    iprop(owns (c : Thread nD τ) arg1 fullShare xa ∗ owns (c : Thread nD τ) arg2 fullShare xb
        ∗ owns (c : Thread nD τ) arg3 fullShare w ∗ owns (c : Thread nD τ) arg4 fullShare b
        ∗ (∃ d, owns (c : Thread nD τ) arg5 fullShare d)
        ∗ (iprop(owns (c : Thread nD τ) arg1 fullShare xa ∗ owns (c : Thread nD τ) arg2 fullShare xb
            ∗ owns (c : Thread nD τ) arg3 fullShare w ∗ owns (c : Thread nD τ) arg4 fullShare b
            ∗ owns (c : Thread nD τ) arg5 fullShare (outBlk xa xb w b)) -∗ K ⟨⟩))
      ⊢ wp frame (wpE (defs₀ (F := F)) Variants.none c none) E (cc0__router_body i arg1 harg1 arg2 harg2 arg3 harg3 arg4 harg4 arg5 harg5) K := by
  simp only [cc0__router_body_eq_skeleton]; unfold cc0__router_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _ _)

end Cert.Kernel.Hand

end
-- ==== Proof.KData.lean ====
/-
  The pipeline's proof data and the body obligation. At grid point t the five windows hold: the token rows 2048·t .. 2048·t+1023 and
  2048·t+1024 .. 2048·t+2047 (two windows on the one token array, each holding half of its share), the whole expert matrix, the whole bias row,
  and the output block of columns 2048·t .. 2048·t+2047. The body leaves every input block as it found it and the output block at `outBlk` of them.
-/
import proofs.«168332_g73478300500023_cont_9to1_m_1377_26_alg».proof.Proof.KBody
import proofs.«168332_g73478300500023_cont_9to1_m_1377_26_alg».proof.Proof.Gen.Kernel.Launch
import proofs.«168332_g73478300500023_cont_9to1_m_1377_26_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, per core
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, its block index has not moved),
    for any proof data whose array is the entry contents and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as the region finds them; after the body at point `t` each input's buffer at its block and the
    output's at `outBlk` of the input blocks; the scoped rest and the generator register untouched; nothing owed. The token array is read
    through two windows: each holds half of its share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlk (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) :
    (dat V c).after 4 t = outBlk (iblk V c 0 t) (iblk V c 1 t) (iblk V c 2 t) (iblk V c 3 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so the body's run applies; the invariant and what the core owes
    pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Hand

end
-- ==== Proof.KRun.lean ====
/-
  @main from the launch to the return, as three segments: the bias reshaped to a row, the kernel region, the final transpose. The region's
  two token windows read ONE array, so the array's full share is dealt to them in halves at the entry and joined again at the exit; every
  other window's array is held whole. The run names what every unscoped buffer holds at the end; the frame and the result's contents are
  read off it.
-/
import proofs.«168332_g73478300500023_cont_9to1_m_1377_26_alg».proof.Proof.KData
import Idealize.ShloMosaic.Lib.Pipeline.Regions
import Idealize.ShloMosaic.Lib.Pipeline.Frame
import Idealize.ShloMosaic.Lib.Pipeline.Kit
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The unscoped buffers and the windows' arrays, listed one by one

The core has six unscoped buffers: the three arguments, the bias reshaped to a row, the kernel's expert-major result and @main's result.
Four of them are windows' arrays, the token array behind two windows. -/

section Lists

theorem unscopedBufs_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_arg2) ↦{fullShare} V main_arg2) ∗ (((c : Thread nD τ).loc main_call0_v0) ↦{fullShare} V main_call0_v0)
          ∗ (((c : Thread nD τ).loc main_call0_v1) ↦{fullShare} V main_call0_v1) ∗ (((c : Thread nD τ).loc main_v0) ↦{fullShare} V main_v0)) := by
  unfold unscopedBufs
  exact bigSep_eq_bigSepL_of_eq [main_arg0, main_arg1, main_arg2, main_call0_v0, main_call0_v1, main_v0] (by decide) (by decide) _

variable (V : (c : Dev nD) → (b : Ref sig .tc) → Buf (Elt F) ((c : Thread nD τ).loc b))

/-- The proof data's arrays, window by window: the token array at its left half share for window 0 and at its right half share for
    window 1, the other three at the full share. -/
theorem arrays_list (c : Dev nD) (G : (w : Fin cfg0.W) → Buf (Elt F) ((cfg0.win w).arr.view.loc (c : Thread nD τ))) :
    ((dat V c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_call0_v0) ↦{fullShare} G 3)
          ∗ (((c : Thread nD τ).loc main_call0_v1) ↦{fullShare} G 4)) := by
  have h : ((dat V c).arrays G : sProp 𝕄) = bigSep Finset.univ fun w : Fin cfg0.W =>
      (((c : Thread nD τ).loc (Pipeline.arrRef spec0 w)) ↦{(dat V c).share w} G w : sProp 𝕄) := by
    unfold Dat.arrays
    exact bigSep_congr fun w _ => by rw [(arr_whole0 w).set_eq_univ]
  rw [h, bigSep_W0]
  rfl

/-- ENTRY: the unscoped buffers at the entry contents are the windows' arrays at the proof data's entry contents — the token array's
    full share dealt in halves to its two windows — beside the bias argument and @main's result, which bypass the region. -/
theorem entry_split (c : Dev nD) :
    (unscopedBufs c (V c) : sProp 𝕄) ⊢ iprop((dat V c).arrays ((dat V c).arrAt · 0)
      ∗ (((c : Thread nD τ).loc main_arg2) ↦{fullShare} V c main_arg2) ∗ (((c : Thread nD τ).loc main_v0) ↦{fullShare} V c main_v0)) := by
  rw [unscopedBufs_list, arrays_list]
  iintro ⟨H0, H1, Ha2, H2, H3, Hv0⟩
  ihave H0' := (pointsTo_share (PosShare.mem_left_op_right fullShare)).1 $$ H0
  icases H0' with ⟨H0l, H0r⟩
  isplitl [H0l H0r H1 H2 H3]
  · isplitl [H0l]; · iexact H0l
    isplitl [H0r]; · iexact H0r
    isplitl [H1]; · iexact H1
    isplitl [H2]; · iexact H2
    iexact H3
  isplitl [Ha2]; · iexact Ha2
  iexact Hv0

end Lists

/-! ## The buffer contents at each segment boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the reshape of the bias (the region's entry). -/
abbrev W1 : Dev nD → Valuation τ sig (Elt F) := fun c => StableHlo.after hostOps0 (W0 m ρ c)
/-- The same read at the TensorCore's references (what the proof data take). -/
abbrev V1 : (c : Dev nD) → (b : Ref sig .tc) → Buf (Elt F) ((c : Thread nD τ).loc b) := fun c b => W1 m ρ c b

open Classical in
/-- At the region's exit: the kernel's expert-major result at what the pipeline leaves (its write-backs folded), every other buffer as entered. -/
def W2 (c : Dev nD) : Valuation τ sig (Elt F) :=
  Function.update (W1 m ρ c) (Proc.devRef .tc main_call0_v1) ((dat (V1 m ρ) c).arrAt 4 cfg0.N)
open Classical in
theorem W2_out (c : Dev nD) : W2 m ρ c (Proc.devRef .tc main_call0_v1) = (dat (V1 m ρ) c).arrAt 4 cfg0.N := by
  unfold W2; exact Function.update_self _ _ _
open Classical in
theorem W2_of_ne (c : Dev nD) (b : Ref sig .tc) (hb : b ≠ main_call0_v1) : W2 m ρ c (Proc.devRef .tc b) = W1 m ρ c (Proc.devRef .tc b) := by
  unfold W2; exact Function.update_of_ne (StableHlo.devRef_ne_of_ne hb) _ _
/-- The same read at the TensorCore's references. -/
abbrev V2 : (c : Dev nD) → (b : Ref sig .tc) → Buf (Elt F) ((c : Thread nD τ).loc b) := fun c b => W2 m ρ c b
/-- After the final transpose. -/
abbrev W3 : Dev nD → Valuation τ sig (Elt F) := fun c => StableHlo.after hostOps1 (W2 m ρ c)

/-- An input window's array is never written: at the exit it holds what it held at entry. -/
theorem hF0 (c : Dev nD) : (dat (V1 m ρ) c).arrAt 0 cfg0.N = V2 m ρ c main_arg0 :=
  ((dat (V1 m ρ) c).arrAt_in 0 rfl _).trans ((A_eq (V1 m ρ) c 0).trans (W2_of_ne m ρ c main_arg0 (by decide)).symm)
theorem hF1 (c : Dev nD) : (dat (V1 m ρ) c).arrAt 1 cfg0.N = V2 m ρ c main_arg0 :=
  ((dat (V1 m ρ) c).arrAt_in 1 rfl _).trans ((A_eq (V1 m ρ) c 1).trans (W2_of_ne m ρ c main_arg0 (by decide)).symm)
theorem hF2 (c : Dev nD) : (dat (V1 m ρ) c).arrAt 2 cfg0.N = V2 m ρ c main_arg1 :=
  ((dat (V1 m ρ) c).arrAt_in 2 rfl _).trans ((A_eq (V1 m ρ) c 2).trans (W2_of_ne m ρ c main_arg1 (by decide)).symm)
theorem hF3 (c : Dev nD) : (dat (V1 m ρ) c).arrAt 3 cfg0.N = V2 m ρ c main_call0_v0 :=
  ((dat (V1 m ρ) c).arrAt_in 3 rfl _).trans ((A_eq (V1 m ρ) c 3).trans (W2_of_ne m ρ c main_call0_v0 (by decide)).symm)
theorem hF4 (c : Dev nD) : (dat (V1 m ρ) c).arrAt 4 cfg0.N = V2 m ρ c main_call0_v1 := (W2_out m ρ c).symm

/-- EXIT: the windows' arrays at their final contents — the token array's two half shares joined — beside the two bypassing buffers are
    the unscoped buffers at the exit contents. -/
theorem exit_join (c : Dev nD) :
    iprop((dat (V1 m ρ) c).arrays ((dat (V1 m ρ) c).arrAt · cfg0.N)
      ∗ (((c : Thread nD τ).loc main_arg2) ↦{fullShare} V1 m ρ c main_arg2) ∗ (((c : Thread nD τ).loc main_v0) ↦{fullShare} V1 m ρ c main_v0))
      ⊢ (unscopedBufs c (V2 m ρ c) : sProp 𝕄) := by
  rw [unscopedBufs_list, arrays_list, hF0, hF1, hF2, hF3, hF4,
    show V1 m ρ c main_arg2 = V2 m ρ c main_arg2 from (W2_of_ne m ρ c main_arg2 (by decide)).symm,
    show V1 m ρ c main_v0 = V2 m ρ c main_v0 from (W2_of_ne m ρ c main_v0 (by decide)).symm]
  iintro ⟨⟨H0l, H0r, H1, H2, H3⟩, Ha2, Hv0⟩
  ihave H0 := (pointsTo_share (PosShare.mem_left_op_right fullShare)).2 $$ [H0l H0r]
  · isplitl [H0l]; · iexact H0l
    iexact H0r
  isplitl [H0]; · iexact H0
  isplitl [H1]; · iexact H1
  isplitl [Ha2]; · iexact Ha2
  isplitl [H2]; · iexact H2
  isplitl [H3]; · iexact H3
  iexact Hv0

/-! ## What the buffers hold at the end -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- An argument is written by no host operation and by no write-back: it ends as launched. -/
theorem W3_of_arg (c : Dev nD) (b : Ref sig .tc) (h0 : b ≠ main_call0_v0) (h1 : b ≠ main_call0_v1) (h2 : b ≠ main_v0) :
    W3 m ρ c (Proc.devRef .tc b) = m ((c : Thread nD τ).loc b) :=
  calc W3 m ρ c (Proc.devRef .tc b)
    _ = W2 m ρ c (Proc.devRef .tc b) := StableHlo.after_of_forall_not_mem (b := Proc.devRef .tc b) _ _ (List.forall_iff_forall_mem.mp (by
          simp only [hostOps1, List.Forall, StableHlo.unary_writes, StableHlo.reshape_writes, Finset.mem_singleton]
          exact StableHlo.devRef_ne_of_ne h2))
    _ = W1 m ρ c (Proc.devRef .tc b) := W2_of_ne m ρ c b h1
    _ = W0 m ρ c (Proc.devRef .tc b) := StableHlo.after_of_forall_not_mem (b := Proc.devRef .tc b) _ _ (List.forall_iff_forall_mem.mp (by
          simp only [hostOps0, List.Forall, StableHlo.unary_writes, StableHlo.reshape_writes, Finset.mem_singleton]
          exact StableHlo.devRef_ne_of_ne h0))
    _ = m ((c : Thread nD τ).loc b) := rfl

/-- @main's result is the transpose of the kernel's expert-major result as the pipeline leaves it. -/
theorem W3_result (c : Dev nD) :
    W3 m ρ c (Proc.devRef .tc main_v0)
      = transpose S16384x64 [1, 0] ((dat (V1 m ρ) c).arrAt 4 cfg0.N) transposes_S64x16384_S16384x64_1_0 := by
  rw [← W2_out m ρ c]
  show StableHlo.after hostOps1 (W2 m ρ c) (Proc.devRef .tc main_v0) = _
  after_results
  rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and what the core owes, nothing. -/
abbrev R (c : Dev nD) : sProp 𝕄 := iprop((∃ r, prngReg c r) ∗ ∃ W, owes (c : Thread nD τ) (0 : CellTallies nD τ sig Unit) W)
/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- THE REGION over the thread state: entered from every unscoped buffer at the entry contents, left with them at the exit contents. Its
    arrays are dealt out of the unscoped buffers (the token array in two half shares) and joined back at the exit; the generator register
    goes into the invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := iprop((((c : Thread nD τ).loc main_arg2) ↦{fullShare} V1 m ρ c main_arg2) ∗ (((c : Thread nD τ).loc main_v0) ↦{fullShare} V1 m ρ c main_v0))
  hentry c := by
    rw [Pipeline.ownSems0_none]
    have hsplit := entry_split (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order: the reshape of the bias, the region, the final transpose. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the TensorCores terminates,
    nothing faulting, and in every final state every unscoped buffer holds what the three segments leave in it. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every weakly fair execution terminates, nothing faulting, with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_of_arg m ρ c main_arg0 (by decide) (by decide) (by decide)),
     (h c _ (mem_uc main_arg1 (by decide))).trans (W3_of_arg m ρ c main_arg1 (by decide) (by decide) (by decide)),
     (h c _ (mem_uc main_arg2 (by decide))).trans (W3_of_arg m ρ c main_arg2 (by decide) (by decide) (by decide))⟩) (run_main m ρ)

/-- THE RUN WITH ITS RESULT NAMED: as the frame, and @main's result is the transpose of the kernel's expert-major array as the
    pipeline's write-backs leave it. -/
theorem run_value : θ_run defs (onTc (τ := τ) (main (F := F))) ⟨m, fun _ => 0, ρ⟩ (fun r => ∀ c : Dev nD,
      r.2.mem ((c.tc : Thread nD τ).loc main_v0)
        = transpose S16384x64 [1, 0] ((dat (V1 m ρ) c).arrAt 4 cfg0.N) transposes_S64x16384_S16384x64_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v0 (by decide))).trans (W3_result m ρ c),
     (h c _ (mem_uc main_arg0 (by decide))).trans (W3_of_arg m ρ c main_arg0 (by decide) (by decide) (by decide)),
     (h c _ (mem_uc main_arg1 (by decide))).trans (W3_of_arg m ρ c main_arg1 (by decide) (by decide) (by decide)),
     (h c _ (mem_uc main_arg2 (by decide))).trans (W3_of_arg m ρ c main_arg2 (by decide) (by decide) (by decide))⟩) (run_main m ρ)

end Cert.Kernel.Hand

end
-- ==== Proof.KiBody.lean ====
/-
  The kernel body, run once on whole staging buffers. It reads the expert matrix, the bias row and the two token blocks, and writes the output
  block in two halves: columns 0..1023 hold the products of the expert rows with the first token block's rows, columns 1024..2047 those with
  the second token block's rows, each plus the bias of the row's expert. The output buffer's earlier contents are read and dropped.
-/
import proofs.«168332_g73478300500023_cont_9to1_m_1377_26_alg».proof.Proof.Gen.KernelIdeal.Skeleton
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole expert block, the whole bias row, a whole token block. -/
abbrev rW : Rect S64x2048 := Rect.unit (s := S64x2048) ![0, 0] S64x2048.size inb_S64x2048_S64x2048_0_0
abbrev rB : Rect S1x64 := Rect.unit (s := S1x64) ![0, 0] S1x64.size inb_S1x64_S1x64_0_0
abbrev rX : Rect S1024x2048 := Rect.unit (s := S1024x2048) ![0, 0] S1024x2048.size inb_S1024x2048_S1024x2048_0_0
/-- The left and the right half of the output block. -/
abbrev rLo : Rect S64x2048 := Rect.unit (s := S64x2048) ![0, 0] S64x1024.size inb_S64x2048_S64x1024_0_0
abbrev rHi : Rect S64x2048 := Rect.unit (s := S64x2048) ![0, 1024] S64x1024.size inb_S64x2048_S64x1024_0_1024

/-- What the body leaves in the output block, from the two token blocks, the expert block and the bias row: the right half
    written last, the left half first. -/
def outBlk (xa xb : Vec F S1024x2048 .f32) (w : Vec F S64x2048 .f32) (b : Vec F S1x64 .f32) : Vec F S64x2048 .f32 :=
  View.canon [⟨rHi, k0_pay3 (View.ld w rW) (View.ld b rB) (View.ld xb rX)⟩, ⟨rLo, k0_pay2 (View.ld w rW) (View.ld b rB) (View.ld xa rX)⟩]

/-- The two halves tile the block. -/
theorem cover_out (p0 p1 : Vec F S64x1024 .f32) (y : S64x2048.Idx) :
    ∃ pc ∈ ([⟨rHi, p0⟩, ⟨rLo, p1⟩] : List (View.Piece (Elt F) S64x2048 .f32)), y ∈ pc.1.set :=
  View.cover_of_tiled [⟨rHi, p0⟩, ⟨rLo, p1⟩] S64x1024.size (by rfl) y

set_option maxHeartbeats 1000000 in
/-- The body on whole staging memrefs, the four inputs' at read contents and the output's at anything, runs to the
    continuation with the inputs' as they were and the output's at `outBlk` of them. -/
theorem sound_kernel (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S64x2048 .f32) (harg3 : arg3.IsWhole) (arg4 : Memref sig .tc .vmem S1x64 .f32) (harg4 : arg4.IsWhole)
    (arg5 : Memref sig .tc .vmem S64x2048 .f32) (harg5 : arg5.IsWhole)
    (xa xb : Vec F S1024x2048 .f32) (w : Vec F S64x2048 .f32) (b : Vec F S1x64 .f32) (K : PUnit → sProp 𝕄) :
    iprop(owns (c : Thread nD τ) arg1 fullShare xa ∗ owns (c : Thread nD τ) arg2 fullShare xb
        ∗ owns (c : Thread nD τ) arg3 fullShare w ∗ owns (c : Thread nD τ) arg4 fullShare b
        ∗ (∃ d, owns (c : Thread nD τ) arg5 fullShare d)
        ∗ (iprop(owns (c : Thread nD τ) arg1 fullShare xa ∗ owns (c : Thread nD τ) arg2 fullShare xb
            ∗ owns (c : Thread nD τ) arg3 fullShare w ∗ owns (c : Thread nD τ) arg4 fullShare b
            ∗ owns (c : Thread nD τ) arg5 fullShare (outBlk xa xb w b)) -∗ K ⟨⟩))
      ⊢ wp frame (wpE (defs₀ (F := F)) Variants.none c none) E (cc0__router_body i arg1 harg1 arg2 harg2 arg3 harg3 arg4 harg4 arg5 harg5) K := by
  simp only [cc0__router_body_eq_skeleton]; unfold cc0__router_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _ _)

end Cert.KernelIdeal.Hand

end
-- ==== Proof.KiData.lean ====
/-
  The pipeline's proof data and the body obligation. At grid point t the five windows hold: the token rows 2048·t .. 2048·t+1023 and
  2048·t+1024 .. 2048·t+2047 (two windows on the one token array, each holding half of its share), the whole expert matrix, the whole bias row,
  and the output block of columns 2048·t .. 2048·t+2047. The body leaves every input block as it found it and the output block at `outBlk` of them.
-/
import proofs.«168332_g73478300500023_cont_9to1_m_1377_26_alg».proof.Proof.KiBody
import proofs.«168332_g73478300500023_cont_9to1_m_1377_26_alg».proof.Proof.Gen.KernelIdeal.Launch
import proofs.«168332_g73478300500023_cont_9to1_m_1377_26_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, per core
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, its block index has not moved),
    for any proof data whose array is the entry contents and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as the region finds them; after the body at point `t` each input's buffer at its block and the
    output's at `outBlk` of the input blocks; the scoped rest and the generator register untouched; nothing owed. The token array is read
    through two windows: each holds half of its share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlk (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) :
    (dat V c).after 4 t = outBlk (iblk V c 0 t) (iblk V c 1 t) (iblk V c 2 t) (iblk V c 3 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so the body's run applies; the invariant and what the core owes
    pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Hand

end
-- ==== Proof.KiRun.lean ====
/-
  @main from the launch to the return, as three segments: the bias reshaped to a row, the kernel region, the final transpose. The region's
  two token windows read ONE array, so the array's full share is dealt to them in halves at the entry and joined again at the exit; every
  other window's array is held whole. The run names what every unscoped buffer holds at the end; the frame and the result's contents are
  read off it.
-/
import proofs.«168332_g73478300500023_cont_9to1_m_1377_26_alg».proof.Proof.KiData
import Idealize.ShloMosaic.Lib.Pipeline.Regions
import Idealize.ShloMosaic.Lib.Pipeline.Frame
import Idealize.ShloMosaic.Lib.Pipeline.Kit
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The unscoped buffers and the windows' arrays, listed one by one

The core has six unscoped buffers: the three arguments, the bias reshaped to a row, the kernel's expert-major result and @main's result.
Four of them are windows' arrays, the token array behind two windows. -/

section Lists

theorem unscopedBufs_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_arg2) ↦{fullShare} V main_arg2) ∗ (((c : Thread nD τ).loc main_call0_v0) ↦{fullShare} V main_call0_v0)
          ∗ (((c : Thread nD τ).loc main_call0_v1) ↦{fullShare} V main_call0_v1) ∗ (((c : Thread nD τ).loc main_v0) ↦{fullShare} V main_v0)) := by
  unfold unscopedBufs
  exact bigSep_eq_bigSepL_of_eq [main_arg0, main_arg1, main_arg2, main_call0_v0, main_call0_v1, main_v0] (by decide) (by decide) _

variable (V : (c : Dev nD) → (b : Ref sig .tc) → Buf (Elt F) ((c : Thread nD τ).loc b))

/-- The proof data's arrays, window by window: the token array at its left half share for window 0 and at its right half share for
    window 1, the other three at the full share. -/
theorem arrays_list (c : Dev nD) (G : (w : Fin cfg0.W) → Buf (Elt F) ((cfg0.win w).arr.view.loc (c : Thread nD τ))) :
    ((dat V c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_call0_v0) ↦{fullShare} G 3)
          ∗ (((c : Thread nD τ).loc main_call0_v1) ↦{fullShare} G 4)) := by
  have h : ((dat V c).arrays G : sProp 𝕄) = bigSep Finset.univ fun w : Fin cfg0.W =>
      (((c : Thread nD τ).loc (Pipeline.arrRef spec0 w)) ↦{(dat V c).share w} G w : sProp 𝕄) := by
    unfold Dat.arrays
    exact bigSep_congr fun w _ => by rw [(arr_whole0 w).set_eq_univ]
  rw [h, bigSep_W0]
  rfl

/-- ENTRY: the unscoped buffers at the entry contents are the windows' arrays at the proof data's entry contents — the token array's
    full share dealt in halves to its two windows — beside the bias argument and @main's result, which bypass the region. -/
theorem entry_split (c : Dev nD) :
    (unscopedBufs c (V c) : sProp 𝕄) ⊢ iprop((dat V c).arrays ((dat V c).arrAt · 0)
      ∗ (((c : Thread nD τ).loc main_arg2) ↦{fullShare} V c main_arg2) ∗ (((c : Thread nD τ).loc main_v0) ↦{fullShare} V c main_v0)) := by
  rw [unscopedBufs_list, arrays_list]
  iintro ⟨H0, H1, Ha2, H2, H3, Hv0⟩
  ihave H0' := (pointsTo_share (PosShare.mem_left_op_right fullShare)).1 $$ H0
  icases H0' with ⟨H0l, H0r⟩
  isplitl [H0l H0r H1 H2 H3]
  · isplitl [H0l]; · iexact H0l
    isplitl [H0r]; · iexact H0r
    isplitl [H1]; · iexact H1
    isplitl [H2]; · iexact H2
    iexact H3
  isplitl [Ha2]; · iexact Ha2
  iexact Hv0

end Lists

/-! ## The buffer contents at each segment boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the reshape of the bias (the region's entry). -/
abbrev W1 : Dev nD → Valuation τ sig (Elt F) := fun c => StableHlo.after hostOps0 (W0 m ρ c)
/-- The same read at the TensorCore's references (what the proof data take). -/
abbrev V1 : (c : Dev nD) → (b : Ref sig .tc) → Buf (Elt F) ((c : Thread nD τ).loc b) := fun c b => W1 m ρ c b

open Classical in
/-- At the region's exit: the kernel's expert-major result at what the pipeline leaves (its write-backs folded), every other buffer as entered. -/
def W2 (c : Dev nD) : Valuation τ sig (Elt F) :=
  Function.update (W1 m ρ c) (Proc.devRef .tc main_call0_v1) ((dat (V1 m ρ) c).arrAt 4 cfg0.N)
open Classical in
theorem W2_out (c : Dev nD) : W2 m ρ c (Proc.devRef .tc main_call0_v1) = (dat (V1 m ρ) c).arrAt 4 cfg0.N := by
  unfold W2; exact Function.update_self _ _ _
open Classical in
theorem W2_of_ne (c : Dev nD) (b : Ref sig .tc) (hb : b ≠ main_call0_v1) : W2 m ρ c (Proc.devRef .tc b) = W1 m ρ c (Proc.devRef .tc b) := by
  unfold W2; exact Function.update_of_ne (StableHlo.devRef_ne_of_ne hb) _ _
/-- The same read at the TensorCore's references. -/
abbrev V2 : (c : Dev nD) → (b : Ref sig .tc) → Buf (Elt F) ((c : Thread nD τ).loc b) := fun c b => W2 m ρ c b
/-- After the final transpose. -/
abbrev W3 : Dev nD → Valuation τ sig (Elt F) := fun c => StableHlo.after hostOps1 (W2 m ρ c)

/-- An input window's array is never written: at the exit it holds what it held at entry. -/
theorem hF0 (c : Dev nD) : (dat (V1 m ρ) c).arrAt 0 cfg0.N = V2 m ρ c main_arg0 :=
  ((dat (V1 m ρ) c).arrAt_in 0 rfl _).trans ((A_eq (V1 m ρ) c 0).trans (W2_of_ne m ρ c main_arg0 (by decide)).symm)
theorem hF1 (c : Dev nD) : (dat (V1 m ρ) c).arrAt 1 cfg0.N = V2 m ρ c main_arg0 :=
  ((dat (V1 m ρ) c).arrAt_in 1 rfl _).trans ((A_eq (V1 m ρ) c 1).trans (W2_of_ne m ρ c main_arg0 (by decide)).symm)
theorem hF2 (c : Dev nD) : (dat (V1 m ρ) c).arrAt 2 cfg0.N = V2 m ρ c main_arg1 :=
  ((dat (V1 m ρ) c).arrAt_in 2 rfl _).trans ((A_eq (V1 m ρ) c 2).trans (W2_of_ne m ρ c main_arg1 (by decide)).symm)
theorem hF3 (c : Dev nD) : (dat (V1 m ρ) c).arrAt 3 cfg0.N = V2 m ρ c main_call0_v0 :=
  ((dat (V1 m ρ) c).arrAt_in 3 rfl _).trans ((A_eq (V1 m ρ) c 3).trans (W2_of_ne m ρ c main_call0_v0 (by decide)).symm)
theorem hF4 (c : Dev nD) : (dat (V1 m ρ) c).arrAt 4 cfg0.N = V2 m ρ c main_call0_v1 := (W2_out m ρ c).symm

/-- EXIT: the windows' arrays at their final contents — the token array's two half shares joined — beside the two bypassing buffers are
    the unscoped buffers at the exit contents. -/
theorem exit_join (c : Dev nD) :
    iprop((dat (V1 m ρ) c).arrays ((dat (V1 m ρ) c).arrAt · cfg0.N)
      ∗ (((c : Thread nD τ).loc main_arg2) ↦{fullShare} V1 m ρ c main_arg2) ∗ (((c : Thread nD τ).loc main_v0) ↦{fullShare} V1 m ρ c main_v0))
      ⊢ (unscopedBufs c (V2 m ρ c) : sProp 𝕄) := by
  rw [unscopedBufs_list, arrays_list, hF0, hF1, hF2, hF3, hF4,
    show V1 m ρ c main_arg2 = V2 m ρ c main_arg2 from (W2_of_ne m ρ c main_arg2 (by decide)).symm,
    show V1 m ρ c main_v0 = V2 m ρ c main_v0 from (W2_of_ne m ρ c main_v0 (by decide)).symm]
  iintro ⟨⟨H0l, H0r, H1, H2, H3⟩, Ha2, Hv0⟩
  ihave H0 := (pointsTo_share (PosShare.mem_left_op_right fullShare)).2 $$ [H0l H0r]
  · isplitl [H0l]; · iexact H0l
    iexact H0r
  isplitl [H0]; · iexact H0
  isplitl [H1]; · iexact H1
  isplitl [Ha2]; · iexact Ha2
  isplitl [H2]; · iexact H2
  isplitl [H3]; · iexact H3
  iexact Hv0

/-! ## What the buffers hold at the end -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- An argument is written by no host operation and by no write-back: it ends as launched. -/
theorem W3_of_arg (c : Dev nD) (b : Ref sig .tc) (h0 : b ≠ main_call0_v0) (h1 : b ≠ main_call0_v1) (h2 : b ≠ main_v0) :
    W3 m ρ c (Proc.devRef .tc b) = m ((c : Thread nD τ).loc b) :=
  calc W3 m ρ c (Proc.devRef .tc b)
    _ = W2 m ρ c (Proc.devRef .tc b) := StableHlo.after_of_forall_not_mem (b := Proc.devRef .tc b) _ _ (List.forall_iff_forall_mem.mp (by
          simp only [hostOps1, List.Forall, StableHlo.unary_writes, StableHlo.reshape_writes, Finset.mem_singleton]
          exact StableHlo.devRef_ne_of_ne h2))
    _ = W1 m ρ c (Proc.devRef .tc b) := W2_of_ne m ρ c b h1
    _ = W0 m ρ c (Proc.devRef .tc b) := StableHlo.after_of_forall_not_mem (b := Proc.devRef .tc b) _ _ (List.forall_iff_forall_mem.mp (by
          simp only [hostOps0, List.Forall, StableHlo.unary_writes, StableHlo.reshape_writes, Finset.mem_singleton]
          exact StableHlo.devRef_ne_of_ne h0))
    _ = m ((c : Thread nD τ).loc b) := rfl

/-- @main's result is the transpose of the kernel's expert-major result as the pipeline leaves it. -/
theorem W3_result (c : Dev nD) :
    W3 m ρ c (Proc.devRef .tc main_v0)
      = transpose S16384x64 [1, 0] ((dat (V1 m ρ) c).arrAt 4 cfg0.N) transposes_S64x16384_S16384x64_1_0 := by
  rw [← W2_out m ρ c]
  show StableHlo.after hostOps1 (W2 m ρ c) (Proc.devRef .tc main_v0) = _
  after_results
  rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and what the core owes, nothing. -/
abbrev R (c : Dev nD) : sProp 𝕄 := iprop((∃ r, prngReg c r) ∗ ∃ W, owes (c : Thread nD τ) (0 : CellTallies nD τ sig Unit) W)
/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- THE REGION over the thread state: entered from every unscoped buffer at the entry contents, left with them at the exit contents. Its
    arrays are dealt out of the unscoped buffers (the token array in two half shares) and joined back at the exit; the generator register
    goes into the invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := iprop((((c : Thread nD τ).loc main_arg2) ↦{fullShare} V1 m ρ c main_arg2) ∗ (((c : Thread nD τ).loc main_v0) ↦{fullShare} V1 m ρ c main_v0))
  hentry c := by
    rw [Pipeline.ownSems0_none]
    have hsplit := entry_split (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order: the reshape of the bias, the region, the final transpose. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the TensorCores terminates,
    nothing faulting, and in every final state every unscoped buffer holds what the three segments leave in it. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every weakly fair execution terminates, nothing faulting, with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_of_arg m ρ c main_arg0 (by decide) (by decide) (by decide)),
     (h c _ (mem_uc main_arg1 (by decide))).trans (W3_of_arg m ρ c main_arg1 (by decide) (by decide) (by decide)),
     (h c _ (mem_uc main_arg2 (by decide))).trans (W3_of_arg m ρ c main_arg2 (by decide) (by decide) (by decide))⟩) (run_main m ρ)

/-- THE RUN WITH ITS RESULT NAMED: as the frame, and @main's result is the transpose of the kernel's expert-major array as the
    pipeline's write-backs leave it. -/
theorem run_value : θ_run defs (onTc (τ := τ) (main (F := F))) ⟨m, fun _ => 0, ρ⟩ (fun r => ∀ c : Dev nD,
      r.2.mem ((c.tc : Thread nD τ).loc main_v0)
        = transpose S16384x64 [1, 0] ((dat (V1 m ρ) c).arrAt 4 cfg0.N) transposes_S64x16384_S16384x64_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v0 (by decide))).trans (W3_result m ρ c),
     (h c _ (mem_uc main_arg0 (by decide))).trans (W3_of_arg m ρ c main_arg0 (by decide) (by decide) (by decide)),
     (h c _ (mem_uc main_arg1 (by decide))).trans (W3_of_arg m ρ c main_arg1 (by decide) (by decide) (by decide)),
     (h c _ (mem_uc main_arg2 (by decide))).trans (W3_of_arg m ρ c main_arg2 (by decide) (by decide) (by decide))⟩) (run_main m ρ)

end Cert.KernelIdeal.Hand

end
-- ==== Proof.Spec.lean ====
/-
  What both programs compute, entry by entry: for token t and expert e the dot product of the expert's weight row with the token's row,
  plus the expert's bias. The kernel lays the entries out expert-major and transposes at the end; the reference lays them out token-major.
-/
import Idealize.ShloMosaic.Lib.ValueIdx
import Idealize.ShloMosaic.PureOps.Ideal

noncomputable section

open scoped BigOperators

namespace Cert.Spec

open Idealize.ShloMosaic Idealize.ShloMosaic.ValueIdx

/-- The shapes of the three arguments and of the two layouts of the result. -/
abbrev SX : Shape := ⟨2, ![16384, 2048]⟩
abbrev SW : Shape := ⟨2, ![64, 2048]⟩
abbrev SB : Shape := ⟨1, ![64]⟩
abbrev SOT : Shape := ⟨2, ![64, 16384]⟩
abbrev SO : Shape := ⟨2, ![16384, 64]⟩

/-- One entry: the weight row of expert `e` against the row of token `t`, summed over the 2048 features, plus the bias of `e`. -/
def cell (x : FVec Ideal SX .f32) (W : FVec Ideal SW .f32) (b : FVec Ideal SB .f32) (t : Fin 16384) (e : Fin 64) : EReal :=
  (∑ d : Fin 2048, W (ix2 e d) * x (ix2 t d)) + b (ix1 e)

/-- The entries laid out expert-major. -/
def logitsT (x : FVec Ideal SX .f32) (W : FVec Ideal SW .f32) (b : FVec Ideal SB .f32) : FVec Ideal SOT .f32 :=
  fun j => cell x W b (j 1) (j 0)

/-- The entries laid out token-major. -/
def logits (x : FVec Ideal SX .f32) (W : FVec Ideal SW .f32) (b : FVec Ideal SB .f32) : FVec Ideal SO .f32 :=
  fun i => cell x W b (i 0) (i 1)

end Cert.Spec

end
-- ==== Proof.KiPayload.lean ====
/-
  The two blocks the kernel body stores, read entry by entry. Each block is the product of the expert matrix w [64,2048] with a token
  block [1024,2048], both contracted along their feature axis, added to the bias row b [1,64] stood up as a column and repeated along the
  1024 token columns. So the entry at expert e and token row r is the dot product of w's row e with the token block's row r, plus b's
  entry e.
-/
import proofs.«168332_g73478300500023_cont_9to1_m_1377_26_alg».proof.Proof.Gen.KernelIdeal.Skeleton
import proofs.«168332_g73478300500023_cont_9to1_m_1377_26_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KVal

open Cert.KernelIdeal Cert.KernelIdeal.Gen Idealize.ShloMosaic Idealize.ShloMosaic.ValueIdx

/-! ## The operand indices of the product

Both operands are contracted along their axis 1; the left operand's axis 0 is the result's axis 0, the right operand's axis 0 is the
result's axis 1. -/

/-- The left operand's row is the result's row. -/
theorem lhs_prod_0 (i : S64x1024.Idx) (q : dot_S64x2048_S1024x2048_S64x1024_1_1_0_0_n_n.contr.Idx) :
    (dot_S64x2048_S1024x2048_S64x1024_1_1_0_0_n_n.lhsIdx i q 0).val = (i 0).val := by
  unfold DotDims.lhsIdx
  rw [dif_neg (show ¬(0 : Fin S64x2048.rank) ∈ dot_S64x2048_S1024x2048_S64x1024_1_1_0_0_n_n.lhsBatch by decide), dif_pos (show (0 : Fin S64x2048.rank) ∈ dot_S64x2048_S1024x2048_S64x1024_1_1_0_0_n_n.lhsNonContracting by decide)]
  rfl

/-- The left operand's column is the contraction index. -/
theorem lhs_prod_1 (i : S64x1024.Idx) (q : dot_S64x2048_S1024x2048_S64x1024_1_1_0_0_n_n.contr.Idx) :
    (dot_S64x2048_S1024x2048_S64x1024_1_1_0_0_n_n.lhsIdx i q 1).val = (q ⟨0, by decide⟩).val :=
  dot_S64x2048_S1024x2048_S64x1024_1_1_0_0_n_n.lhsIdx_val_of_single rfl i q

/-- The right operand's row is the result's column. -/
theorem rhs_prod_0 (i : S64x1024.Idx) (q : dot_S64x2048_S1024x2048_S64x1024_1_1_0_0_n_n.contr.Idx) :
    (dot_S64x2048_S1024x2048_S64x1024_1_1_0_0_n_n.rhsIdx i q 0).val = (i 1).val := by
  unfold DotDims.rhsIdx
  rw [dif_neg (show ¬(0 : Fin S1024x2048.rank) ∈ dot_S64x2048_S1024x2048_S64x1024_1_1_0_0_n_n.rhsBatch by decide), dif_pos (show (0 : Fin S1024x2048.rank) ∈ dot_S64x2048_S1024x2048_S64x1024_1_1_0_0_n_n.rhsNonContracting by decide)]
  rfl

/-- The right operand's column is the contraction index. -/
theorem rhs_prod_1 (i : S64x1024.Idx) (q : dot_S64x2048_S1024x2048_S64x1024_1_1_0_0_n_n.contr.Idx) :
    (dot_S64x2048_S1024x2048_S64x1024_1_1_0_0_n_n.rhsIdx i q 1).val = (q ⟨0, by decide⟩).val :=
  dot_S64x2048_S1024x2048_S64x1024_1_1_0_0_n_n.rhsIdx_val_of_single rfl i q

/-! ## The product into the zero accumulator -/

/-- The product of w with a token block, at expert e and token row r: the dot product of the two rows. -/
theorem prod_apply (w : FVec Ideal S64x2048 .f32) (x : FVec Ideal S1024x2048 .f32) (e : Fin 64) (r : Fin 1024) :
    matmul dot_S64x2048_S1024x2048_S64x1024_1_1_0_0_n_n none w x (constant (F := Ideal) S64x1024 .f32 0x00000000#32) (ix2 e r)
      = ∑ d : Fin 2048, w (ix2 e d) * x (ix2 r d) := by
  refine (Ideal.matmul_constant_zero_apply dot_S64x2048_S1024x2048_S64x1024_1_1_0_0_n_n none w x (ix2 e r)).trans ?_
  rw [← Equiv.sum_comp (contrEquiv1 dot_S64x2048_S1024x2048_S64x1024_1_1_0_0_n_n 2048 rfl rfl).symm]
  refine Finset.sum_congr rfl fun k _ => ?_
  have hk := contrEquiv1_symm_val dot_S64x2048_S1024x2048_S64x1024_1_1_0_0_n_n 2048 rfl rfl k
  have el : dot_S64x2048_S1024x2048_S64x1024_1_1_0_0_n_n.lhsIdx (ix2 e r) ((contrEquiv1 dot_S64x2048_S1024x2048_S64x1024_1_1_0_0_n_n 2048 rfl rfl).symm k) = ix2 e k := funext fun a => Fin.ext (by
    match a with
    | ⟨0, _⟩ => exact lhs_prod_0 _ _
    | ⟨1, _⟩ => exact (lhs_prod_1 _ _).trans hk)
  have er : dot_S64x2048_S1024x2048_S64x1024_1_1_0_0_n_n.rhsIdx (ix2 e r) ((contrEquiv1 dot_S64x2048_S1024x2048_S64x1024_1_1_0_0_n_n 2048 rfl rfl).symm k) = ix2 r k := funext fun a => Fin.ext (by
    match a with
    | ⟨0, _⟩ => exact rhs_prod_0 _ _
    | ⟨1, _⟩ => exact (rhs_prod_1 _ _).trans hk)
  rw [el, er]

/-! ## The bias column -/

/-- The bias row stood up as a column: its entry e. -/
theorem pay1_apply (b : Vec Ideal S1x64 .f32) (e : Fin 64) :
    k0_pay1 (F := Ideal) b (ix2 e (0 : Fin 1)) = b (ix2 (0 : Fin 1) e) := by
  unfold k0_pay1
  rw [shapeCast_self]
  exact transpose_ix2_apply b transposes_S1x64_p1_0_S64x1 e (0 : Fin 1)

/-- The bias column repeated along the token columns: entry e in every column. -/
theorem bias_apply (b : Vec Ideal S1x64 .f32) (e : Fin 64) (r : Fin 1024) :
    broadcastTo S64x1024 (k0_pay1 (F := Ideal) b) broadcasts_S64x1_S64x1024 (ix2 e r) = b (ix2 (0 : Fin 1) e) := by
  rw [← pay1_apply b e]
  exact broadcastTo_apply (k0_pay1 (F := Ideal) b) broadcasts_S64x1_S64x1024 (ix2 e r) (ix2 e (0 : Fin 1)) (fun a => match a with
    | ⟨0, _⟩ => by show e.val = if (64 : Nat) = 1 then 0 else e.val; rw [if_neg (by decide)]
    | ⟨1, _⟩ => by show 0 = if (1 : Nat) = 1 then 0 else r.val; rw [if_pos rfl])

/-! ## The two stored blocks -/

/-- The first stored block at expert e and token row r of the first token block. -/
theorem pay2_apply (w : Vec Ideal S64x2048 .f32) (b : Vec Ideal S1x64 .f32) (xa : Vec Ideal S1024x2048 .f32) (e : Fin 64) (r : Fin 1024) :
    k0_pay2 (F := Ideal) w b xa (ix2 e r) = (∑ d : Fin 2048, w (ix2 e d) * xa (ix2 r d)) + b (ix2 (0 : Fin 1) e) := by
  unfold k0_pay2
  rw [addf_apply, prod_apply, bias_apply]

/-- The second stored block at expert e and token row r of the second token block. -/
theorem pay3_apply (w : Vec Ideal S64x2048 .f32) (b : Vec Ideal S1x64 .f32) (xb : Vec Ideal S1024x2048 .f32) (e : Fin 64) (r : Fin 1024) :
    k0_pay3 (F := Ideal) w b xb (ix2 e r) = (∑ d : Fin 2048, w (ix2 e d) * xb (ix2 r d)) + b (ix2 (0 : Fin 1) e) := by
  unfold k0_pay3
  rw [addf_apply, prod_apply, bias_apply]

end Cert.KernelIdeal.KVal

end
-- ==== Proof.KiValue.lean ====
/-
  From the blocks to the array. At grid point t the kernel's output window is the block of columns 2048·t .. 2048·t+2047 of the
  expert-major array [64,16384]; its left half is the products of the expert rows with token rows 2048·t .. 2048·t+1023 and its right half
  those with token rows 2048·t+1024 .. 2048·t+2047, each plus the expert's bias. So every point writes back its block of ONE function of
  the three arguments — entry (e, j) is the dot product of expert row e with token row j plus the bias of e — and the eight blocks tile
  the array: the array ends holding that function.
-/
import proofs.«168332_g73478300500023_cont_9to1_m_1377_26_alg».proof.Proof.KiData
import proofs.«168332_g73478300500023_cont_9to1_m_1377_26_alg».proof.Proof.KiPayload
import proofs.«168332_g73478300500023_cont_9to1_m_1377_26_alg».proof.Proof.Spec
import Idealize.ShloMosaic.Lib.Pipeline.Value
import Idealize.ShloMosaic.Lib.ValueIdx

noncomputable section

open scoped BigOperators

namespace Cert.KernelIdeal.KVal

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

/-! ## The index maps over the grid -/

/-- The windows' index maps over the eight grid points: the first token window sits at block row 2t, the second at 2t+1, the
    expert matrix and the bias row do not move, the output window sits at block column t. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-! ## The output block, entry by entry -/

theorem zero_offsets : (![0, 0] : Fin 2 → Nat) = fun _ => 0 := funext fun a => by fin_cases a <;> rfl

/-- A column below 1024 is not in the right half. -/
theorem not_mem_hi (y : S64x2048.Idx) (h1 : (y 1).val < 1024) : y ∉ rHi.set := by
  rw [Rect.mem_set_unit]
  intro h
  have h1' : (1024 : Nat) ≤ (y 1).val := (h 1).1
  omega

/-- The right half: column 1024 + r holds the product with row r of the second token block. -/
theorem outBlk_hi (xa xb : Vec Ideal S1024x2048 .f32) (w : Vec Ideal S64x2048 .f32) (b : Vec Ideal S1x64 .f32)
    (e : Fin 64) (r : Fin 1024) (y : S64x2048.Idx) (hy0 : (y 0).val = e.val) (hy1 : (y 1).val = 1024 + r.val) :
    outBlk xa xb w b y = (∑ d : Fin 2048, w (ix2 e d) * xb (ix2 r d)) + b (ix2 (0 : Fin 1) e) := by
  have ey : y = rHi.emb (ix2 e r) := funext fun a => Fin.ext (by
    match a with
    | ⟨0, _⟩ => show (y 0).val = 0 + 1 * e.val; omega
    | ⟨1, _⟩ => show (y 1).val = 1024 + 1 * r.val; omega)
  unfold outBlk
  rw [ey, View.canon_cons_emb]
  simp only [View.ld_unit_zero (S := S64x2048) zero_offsets, View.ld_unit_zero (S := S1x64) zero_offsets,
    View.ld_unit_zero (S := S1024x2048) zero_offsets]
  exact pay3_apply w b xb e r

/-- The left half: column r holds the product with row r of the first token block. -/
theorem outBlk_lo (xa xb : Vec Ideal S1024x2048 .f32) (w : Vec Ideal S64x2048 .f32) (b : Vec Ideal S1x64 .f32)
    (e : Fin 64) (r : Fin 1024) (y : S64x2048.Idx) (hy0 : (y 0).val = e.val) (hy1 : (y 1).val = r.val) :
    outBlk xa xb w b y = (∑ d : Fin 2048, w (ix2 e d) * xa (ix2 r d)) + b (ix2 (0 : Fin 1) e) := by
  have hr : r.val < 1024 := r.isLt
  have hn : y ∉ rHi.set := not_mem_hi y (by omega)
  have ey : y = rLo.emb (ix2 e r) := funext fun a => Fin.ext (by
    match a with
    | ⟨0, _⟩ => show (y 0).val = 0 + 1 * e.val; omega
    | ⟨1, _⟩ => show (y 1).val = 0 + 1 * r.val; omega)
  unfold outBlk
  refine (View.canon_cons_of_not_mem (⟨rHi, _⟩ : View.Piece (Elt Ideal) S64x2048 .f32) _ hn).trans ?_
  rw [ey, View.canon_cons_emb]
  simp only [View.ld_unit_zero (S := S64x2048) zero_offsets, View.ld_unit_zero (S := S1x64) zero_offsets,
    View.ld_unit_zero (S := S1024x2048) zero_offsets]
  exact pay2_apply w b xa e r

/-- The output block at point n from input blocks that hold their parts of the arguments: entry (e, q) is the expert-major entry at expert e
    and token 2048·n + q. -/
theorem outBlk_apply (X : FVec Ideal Cert.Spec.SX .f32) (W : FVec Ideal Cert.Spec.SW .f32) (B : Vec Ideal S1x64 .f32) (n : Nat)
    (xa xb : Vec Ideal S1024x2048 .f32) (w : Vec Ideal S64x2048 .f32) (b : Vec Ideal S1x64 .f32)
    (hxa : ∀ (x : S1024x2048.Idx) (k : S16384x2048.Idx), (k 0).val = 2048 * n + (x 0).val → (k 1).val = (x 1).val → xa x = X k)
    (hxb : ∀ (x : S1024x2048.Idx) (k : S16384x2048.Idx), (k 0).val = 2048 * n + 1024 + (x 0).val → (k 1).val = (x 1).val → xb x = X k)
    (hw : ∀ x : S64x2048.Idx, w x = W x) (hb : ∀ x : S1x64.Idx, b x = B x)
    (y : S64x2048.Idx) (i : S64x16384.Idx) (hi0 : (i 0).val = (y 0).val) (hi1 : (i 1).val = 2048 * n + (y 1).val) :
    outBlk xa xb w b y = Cert.Spec.logitsT X W (fun j => B (ix2 (0 : Fin 1) (j 0))) i := by
  have hy0 : (y 0).val < 64 := (y 0).isLt
  have hy1 : (y 1).val < 2048 := (y 1).isLt
  have hi1' : (i 1).val < 16384 := (i 1).isLt
  have ei : i = ix2 (⟨(y 0).val, hy0⟩ : Fin 64) (⟨2048 * n + (y 1).val, by omega⟩ : Fin 16384) := funext fun a => Fin.ext (by
    match a with
    | ⟨0, _⟩ => exact hi0
    | ⟨1, _⟩ => exact hi1)
  rw [ei]
  show _ = (∑ d : Fin 2048, W (ix2 (⟨(y 0).val, hy0⟩ : Fin 64) d) * X (ix2 (⟨2048 * n + (y 1).val, by omega⟩ : Fin 16384) d))
    + B (ix2 (0 : Fin 1) (⟨(y 0).val, hy0⟩ : Fin 64))
  by_cases hq : (y 1).val < 1024
  · rw [outBlk_lo xa xb w b ⟨(y 0).val, hy0⟩ ⟨(y 1).val, hq⟩ y rfl rfl, hb]
    congr 1
    refine Finset.sum_congr rfl fun d _ => ?_
    rw [hw, hxa (ix2 (⟨(y 1).val, hq⟩ : Fin 1024) d) (ix2 (⟨2048 * n + (y 1).val, by omega⟩ : Fin 16384) d) rfl rfl]
  · rw [outBlk_hi xa xb w b ⟨(y 0).val, hy0⟩ ⟨(y 1).val - 1024, by omega⟩ y rfl
      (by show (y 1).val = 1024 + ((y 1).val - 1024); omega), hb]
    congr 1
    refine Finset.sum_congr rfl fun d _ => ?_
    rw [hw, hxb (ix2 (⟨(y 1).val - 1024, by omega⟩ : Fin 1024) d) (ix2 (⟨2048 * n + (y 1).val, by omega⟩ : Fin 16384) d)
      (by show 2048 * n + (y 1).val = 2048 * n + 1024 + ((y 1).val - 1024); omega) rfl]

/-! ## The input blocks as parts of the arguments -/

/-- The first token window's block at point t is rows 2048·t .. 2048·t+1023 of the token array. -/
theorem iblk0_apply (V : (c : Dev nD) → (b : Ref sig .tc) → Buf (Elt Ideal) ((c : Thread nD τ).loc b)) (c : Dev nD)
    (t : Fin cfg0.N) (x : S1024x2048.Idx) (k : S16384x2048.Idx)
    (hk0 : (k 0).val = 2048 * t.val + (x 0).val) (hk1 : (k 1).val = (x 1).val) :
    (iblk V c 0 t : Vec Ideal S1024x2048 .f32) x = (V c main_arg0 : S16384x2048.Idx → Elt Ideal .f32) k := by
  obtain ⟨e0, e1, -⟩ := idx_facts t
  unfold iblk
  show V c main_arg0 _ = V c main_arg0 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 2048 + 1 * (x 1).val = (k 1).val; rw [e1, hk1]; omega

/-- The second token window's block at point t is rows 2048·t+1024 .. 2048·t+2047 of the token array. -/
theorem iblk1_apply (V : (c : Dev nD) → (b : Ref sig .tc) → Buf (Elt Ideal) ((c : Thread nD τ).loc b)) (c : Dev nD)
    (t : Fin cfg0.N) (x : S1024x2048.Idx) (k : S16384x2048.Idx)
    (hk0 : (k 0).val = 2048 * t.val + 1024 + (x 0).val) (hk1 : (k 1).val = (x 1).val) :
    (iblk V c 1 t : Vec Ideal S1024x2048 .f32) x = (V c main_arg0 : S16384x2048.Idx → Elt Ideal .f32) k := by
  obtain ⟨-, -, e0, e1, -⟩ := idx_facts t
  unfold iblk
  show V c main_arg0 _ = V c main_arg0 _
  congr 1
  funext a
  apply Fin.ext
  match a with
  | ⟨0, _⟩ => show win0_1.index t (0 : Fin 2) * 1024 + 1 * (x 0).val = (k 0).val; rw [e0, hk0]; omega
  | ⟨1, _⟩ => show win0_1.index t (1 : Fin 2) * 2048 + 1 * (x 1).val = (k 1).val; rw [e1, hk1]; omega

/-- The expert window's block at every point is the whole expert matrix. -/
theorem iblk2_apply (V : (c : Dev nD) → (b : Ref sig .tc) → Buf (Elt Ideal) ((c : Thread nD τ).loc b)) (c : Dev nD)
    (t : Fin cfg0.N) (x : S64x2048.Idx) :
    (iblk V c 2 t : Vec Ideal S64x2048 .f32) x = (V c main_arg1 : S64x2048.Idx → Elt Ideal .f32) x := by
  obtain ⟨-, -, -, -, e0, e1, -⟩ := idx_facts t
  unfold iblk
  show V c main_arg1 _ = V c main_arg1 _
  congr 1
  funext a
  apply Fin.ext
  match a with
  | ⟨0, _⟩ => show win0_2.index t (0 : Fin 2) * 64 + 1 * (x 0).val = (x 0).val; rw [e0]; omega
  | ⟨1, _⟩ => show win0_2.index t (1 : Fin 2) * 2048 + 1 * (x 1).val = (x 1).val; rw [e1]; omega

/-- The bias window's block at every point is the whole bias row. -/
theorem iblk3_apply (V : (c : Dev nD) → (b : Ref sig .tc) → Buf (Elt Ideal) ((c : Thread nD τ).loc b)) (c : Dev nD)
    (t : Fin cfg0.N) (x : S1x64.Idx) :
    (iblk V c 3 t : Vec Ideal S1x64 .f32) x = (V c main_call0_v0 : S1x64.Idx → Elt Ideal .f32) x := by
  obtain ⟨-, -, -, -, -, -, e0, e1, -⟩ := idx_facts t
  unfold iblk
  show V c main_call0_v0 _ = V c main_call0_v0 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 64 + 1 * (x 1).val = (x 1).val; rw [e1]; omega

/-! ## What a point writes back, and the array after the last point -/

/-- What point t writes back is block t of the expert-major entries of the arguments as the region finds them. -/
theorem flushed_eq (V : (c : Dev nD) → (b : Ref sig .tc) → Buf (Elt Ideal) ((c : Thread nD τ).loc b)) (c : Dev nD) (t : Fin cfg0.N) :
    (dat (F := Ideal) V c).flushed 4 t = ((cfg0.win 4).blk t).view.read (Elt Ideal)
      (Cert.Spec.logitsT (V c main_arg0) (V c main_arg1) (fun j => V c main_call0_v0 (ix2 (0 : Fin 1) (j 0)))) := by
  obtain ⟨-, -, -, -, -, -, -, -, e0, e1⟩ := idx_facts t
  show (cfg0.win 4).cut (grid0.coords t) ((dat V c).after 4 t) = _
  rw [after4]
  funext y
  show outBlk (iblk V c 0 t) (iblk V c 1 t) (iblk V c 2 t) (iblk V c 3 t) (win0_4.xinj (grid0.coords t) y)
    = Cert.Spec.logitsT (V c main_arg0) (V c main_arg1) (fun j => V c main_call0_v0 (ix2 (0 : Fin 1) (j 0))) (((cfg0.win 4).blk t).view.emb y)
  exact outBlk_apply (V c main_arg0) (V c main_arg1) (V c main_call0_v0) t.val _ _ _ _
    (fun x k h0 h1 => iblk0_apply V c t x k h0 h1) (fun x k h0 h1 => iblk1_apply V c t x k h0 h1)
    (fun x => iblk2_apply V c t x) (fun x => iblk3_apply V c t x) _ _
    (by show win0_4.index t (0 : Fin 2) * 64 + 1 * (y 0).val = (y 0).val; rw [e0]; omega)
    (by show win0_4.index t (1 : Fin 2) * 2048 + 1 * (y 1).val = 2048 * t.val + (y 1).val; rw [e1]; omega)

/-- An index of the output array is in point t's block iff each coordinate is in the block's range on its axis. -/
theorem mem_blk (t : Fin cfg0.N) (i : S64x16384.Idx) :
    i ∈ ((cfg0.win 4).blk t).view.set ↔ ∀ a : Fin 2, win0_4.index t a * S64x2048.size a ≤ (i a).val ∧ (i a).val < win0_4.index t a * S64x2048.size a + S64x2048.size a := by
  show i ∈ ((View.whole main_call0_v1).slice (win0_4.rect t)).set ↔ _
  rw [View.set_slice_whole, Rect.mem_set_unit]
  exact Iff.rfl

/-- Column j of the output array is in the block of point j / 2048. -/
theorem cover (i : S64x16384.Idx) : ∃ t : Fin cfg0.N, (cfg0.win 4).flush t = true ∧ i ∈ ((cfg0.win 4).blk t).view.set := by
  have hi0 : (i 0).val < 64 := (i 0).isLt
  have hi1 : (i 1).val < 16384 := (i 1).isLt
  obtain ⟨t, ht⟩ : ∃ t : Fin cfg0.N, t.val = (i 1).val / 2048 := ⟨⟨(i 1).val / 2048, by show (i 1).val / 2048 < 8; omega⟩, rfl⟩
  obtain ⟨-, -, -, -, -, -, -, -, e0, e1⟩ := idx_facts t
  refine ⟨t, flush0_4 t, ?_⟩
  rw [mem_blk]
  intro a
  match a with
  | ⟨0, _⟩ => show win0_4.index t (0 : Fin 2) * 64 ≤ (i 0).val ∧ (i 0).val < win0_4.index t (0 : Fin 2) * 64 + 64; rw [e0]; omega
  | ⟨1, _⟩ => show win0_4.index t (1 : Fin 2) * 2048 ≤ (i 1).val ∧ (i 1).val < win0_4.index t (1 : Fin 2) * 2048 + 2048; rw [e1]; omega

/-- The output array after the last point: entry (e, j) is the dot product of expert row e with token row j plus the bias of e. -/
theorem final_out (V : (c : Dev nD) → (b : Ref sig .tc) → Buf (Elt Ideal) ((c : Thread nD τ).loc b)) (c : Dev nD) :
    (dat (F := Ideal) V c).arrAt 4 cfg0.N
      = Cert.Spec.logitsT (V c main_arg0) (V c main_arg1) (fun j => V c main_call0_v0 (ix2 (0 : Fin 1) (j 0))) :=
  (dat (F := Ideal) V c).arrAt_eq_of_cover 4 _ (fun t _ => flushed_eq V c t) cover

end Cert.KernelIdeal.KVal

end
-- ==== Proof.KiBridge.lean ====
/-
  The idealized kernel's result in closed form. The pipeline leaves the expert-major array at the specification's expert-major layout of the
  entries, computed from the buffers the region was entered with; the token and weight arrays enter the region as launched, and the bias
  row the region reads is the bias argument with a unit axis in front. The final transpose turns the expert-major layout into the token-major
  one. So @main's result is the specification's token-major array of the three argument arrays.
-/
import proofs.«168332_g73478300500023_cont_9to1_m_1377_26_alg».proof.Proof.KiRun
import proofs.«168332_g73478300500023_cont_9to1_m_1377_26_alg».proof.Proof.KiValue
import proofs.«168332_g73478300500023_cont_9to1_m_1377_26_alg».proof.Proof.Spec
import Idealize.ShloMosaic.Lib.ValueLayout
import Idealize.ShloMosaic.Lib.Pipeline.Value
import Idealize.ShloMosaic.Lib.ValueIdx

noncomputable section

open scoped BigOperators

namespace Cert.KernelIdeal.KVal

open Cert.KernelIdeal Cert.KernelIdeal.Gen Cert.KernelIdeal.Hand
open Idealize.ShloMosaic Idealize.ShloMosaic.TcCoe Idealize.ShloMosaic.ValueIdx Idealize.SL.Sem

/-- Transposing the expert-major layout gives the token-major one: both read the same entry. -/
theorem transpose_logitsT (x : FVec Ideal S16384x2048 .f32) (W : FVec Ideal S64x2048 .f32) (b : FVec Ideal S64 .f32) :
    transpose S16384x64 [1, 0] (Cert.Spec.logitsT x W b) transposes_S64x16384_S16384x64_1_0 = Cert.Spec.logits x W b := by
  funext i
  obtain ⟨t, e, rfl⟩ : ∃ (t : Fin 16384) (e : Fin 64), i = ix2 t e := ⟨i 0, i 1, eq_ix2 i⟩
  rw [transpose_ix2_apply]
  rfl

variable (m : (ℓ : Loc nD τ sig) → Buf (Elt Ideal) ℓ) (ρ : Dev nD → PrngReg)

/-- The one host operation before the region writes the bias row only: every other buffer enters the region as launched. -/
theorem V1_of_not_written (c : Dev nD) (b : Ref sig .tc) (h0 : b ≠ main_call0_v0) : V1 m ρ c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact StableHlo.devRef_ne_of_ne h0))

/-- The bias row the region reads: entry (0, e) is the bias argument's entry e. -/
theorem V1_bias (c : Dev nD) (e : Fin 64) :
    V1 m ρ c main_call0_v0 (ix2 (0 : Fin 1) e) = m ((c : Thread nD τ).loc main_arg2) (ix1 e) := by
  have h : StableHlo.after hostOps0 (W0 m ρ c) (Proc.devRef .tc main_call0_v0)
      = shapeCast S1x64 (m ((c : Thread nD τ).loc main_arg2)) shapeCasts_S64_S1x64 := by
    after_results
    rfl
  show StableHlo.after hostOps0 (W0 m ρ c) (Proc.devRef .tc main_call0_v0) (ix2 (0 : Fin 1) e) = _
  rw [h]
  exact shapeCast_a_1a_apply _ _ (0 : Fin 1) e

/-- @main's result array, from the launched arguments. -/
theorem result_eq (c : Dev nD) :
    transpose S16384x64 [1, 0] ((dat (F := Ideal) (V1 m ρ) c).arrAt 4 cfg0.N) transposes_S64x16384_S16384x64_1_0
      = Cert.Spec.logits (m ((c : Thread nD τ).loc main_arg0)) (m ((c : Thread nD τ).loc main_arg1)) (m ((c : Thread nD τ).loc main_arg2)) := by
  rw [final_out (V1 m ρ) c, V1_of_not_written m ρ c main_arg0 (by decide), V1_of_not_written m ρ c main_arg1 (by decide),
    show (fun j : S64.Idx => V1 m ρ c main_call0_v0 (ix2 (0 : Fin 1) (j 0))) = m ((c : Thread nD τ).loc main_arg2) from
      funext fun j => (V1_bias m ρ c (j 0)).trans (congrArg _ (eq_ix1 j).symm)]
  exact transpose_logitsT _ _ _

/-- THE IDEALIZED KERNEL'S RUN: every weakly fair execution terminates, nothing faulting, with @main's result at the specification's
    token-major array of the launched arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v0)
        = Cert.Spec.logits (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (run_value m ρ)

end Cert.KernelIdeal.KVal

end
-- ==== Proof.RefValue.lean ====
/-
  The reference's result, read index by index: every entry of the result is the dot product of a token row with an expert row, plus that
  expert's bias, divided by one. The product of two extended reals commutes, so the sum is the specification's sum term by term; the
  pattern 0x3F800000 denotes the real one, and the quotient of any extended real by the real one is that extended real.
-/
import proofs.«168332_g73478300500023_cont_9to1_m_1377_26_alg».proof.Proof.Gen.ReferenceIdeal.Run
import proofs.«168332_g73478300500023_cont_9to1_m_1377_26_alg».proof.Proof.Gen.ReferenceIdeal.Read
import proofs.«168332_g73478300500023_cont_9to1_m_1377_26_alg».proof.Proof.Spec
import Idealize.ShloMosaic.Lib.ValueIdx
import Idealize.ShloMosaic.PureOps.Ideal

noncomputable section

open scoped BigOperators

namespace Cert.ReferenceIdeal.RefValue

open Cert.ReferenceIdeal Cert.ReferenceIdeal.Gen Idealize.ShloMosaic Idealize.ShloMosaic.ValueIdx

/-- The pattern of `1.0` denotes the extended real one. -/
theorem ofBits_one : Ideal.ofBits .f32 0x3F800000#32 = 1 := by
  simp [Ideal.ofBits, Ideal.ieee, -EReal.coe_mul]; norm_num

/-- The quotient of an extended real by one is itself, infinities and junk included. -/
theorem div_one (a : EReal) : Ideal.div a 1 = a := by
  have h := Ideal.div_coe (y := 1) one_ne_zero a
  simpa using h

/-- The left operand of the contraction is read at token `i 0`, feature `k`. -/
theorem lidx_eq (i : S16384x64.Idx) (k : Fin 2048) : Read.lidx_main_v1 i k = ix2 (i 0) k := by
  funext a; match a with | ⟨0, _⟩ => rfl | ⟨1, _⟩ => rfl

/-- The transposed weights at feature `k`, expert `i 1` are the weights at expert `i 1`, feature `k`. -/
theorem ridx_eq (i : S16384x64.Idx) (k : Fin 2048) : Read.idx_main_v0 (Read.ridx_main_v1 i k) = ix2 (i 1) k := by
  funext a; match a with | ⟨0, _⟩ => rfl | ⟨1, _⟩ => rfl

/-- The bias broadcast along the tokens is read at expert `i 1`. -/
theorem bidx_eq (i : S16384x64.Idx) : Read.idx_main_v2 (Read.idx_main_v3 i) = ix1 (i 1) := by
  funext a; match a with | ⟨0, _⟩ => rfl

/-- The reference's result is the specification's token-major array. -/
theorem result_eq (x : FVec Ideal S16384x2048 .f32) (W : FVec Ideal S64x2048 .f32) (b : FVec Ideal S64 .f32) :
    Host.divf (addf (Host.dotGeneral dot_S16384x2048_S2048x64_S16384x64_1_0_0_1_n_n none x (transpose S2048x64 [1, 0] W transposes_S64x2048_S2048x64_1_0)) (broadcastInDim S16384x64 ![0, 1] bcast_S1x64_S16384x64_0_1 (broadcastInDim S1x64 ![1] bcast_S64_S1x64_1 b))) (broadcastInDim S16384x64 ![] bcast_S_S16384x64 (constant (F := Ideal) S_ .f32 0x3F800000#32))
      = Cert.Spec.logits x W b := by
  rw [Read.val_main_v6_eq (F := Ideal) x W b]
  funext i
  rw [Read.val_main_v6_apply, Read.val_main_v4_apply, Read.val_main_v1_apply, Read.val_main_v3_apply,
    Read.val_main_v2_apply, Read.val_main_v5_apply, Read.val_main_cst_apply]
  simp only [Read.val_main_v0_apply, lidx_eq, ridx_eq, bidx_eq]
  rw [Ideal.hostDivf_def, Ideal.ofBits_def, ofBits_one, div_one, Ideal.addf_def]
  show _ = Cert.Spec.cell x W b (i 0) (i 1)
  unfold Cert.Spec.cell
  congr 1
  exact Finset.sum_congr rfl fun d _ => mul_comm _ _

end Cert.ReferenceIdeal.RefValue

end
-- ==== Proof.lean ====
/-
  The router's gating projection: logits[t, e] = Σ_d x[t, d] · W[e, d] + b[e] over 16384 tokens, 2048 features, 64 experts.
  The kernel streams the token array through a grid of 8 points, two blocks of 1024 token rows per point (two windows on the one array),
  with the expert matrix and the bias row resident; each point writes a [64, 2048] block of the expert-major result — two matrix products
  into a zero accumulator, each plus the bias stood up as a column — and @main transposes the result at the end. The reference forms
  x · Wᵀ, adds the bias along the tokens and divides by one.

  At the ideal instance both are the same array entry by entry: the product of two extended reals commutes, so the two dot products
  agree term by term, and the quotient of any extended real by the real one is that extended real; no finiteness of the inputs is used.
  The three frames: each kernel program runs as three segments (the bias reshaped to a row, the region, the transpose), the token array's
  share dealt in halves to its two windows at the region's entry and joined at its exit; the reference is a straight line of host
  operations. Nothing was rewritten when the kernel was idealized, so there is nothing to preserve.
-/
import proofs.«168332_g73478300500023_cont_9to1_m_1377_26_alg».proof.Defs
import proofs.«168332_g73478300500023_cont_9to1_m_1377_26_alg».proof.Proof.Gen.Kernel
import proofs.«168332_g73478300500023_cont_9to1_m_1377_26_alg».proof.Proof.Gen.KernelIdeal
import proofs.«168332_g73478300500023_cont_9to1_m_1377_26_alg».proof.Proof.Gen.ReferenceIdeal
import proofs.«168332_g73478300500023_cont_9to1_m_1377_26_alg».proof.Proof.Gen.Pre_finite_inputs
import proofs.«168332_g73478300500023_cont_9to1_m_1377_26_alg».proof.Proof.Gen.ReferenceIdeal.Run
import proofs.«168332_g73478300500023_cont_9to1_m_1377_26_alg».proof.Proof.KRun
import proofs.«168332_g73478300500023_cont_9to1_m_1377_26_alg».proof.Proof.KiRun
import proofs.«168332_g73478300500023_cont_9to1_m_1377_26_alg».proof.Proof.KiBridge
import proofs.«168332_g73478300500023_cont_9to1_m_1377_26_alg».proof.Proof.RefValue
import Idealize.ShloMosaic.Adequacy
import Idealize.ShloMosaic.Init

noncomputable section

namespace Cert.Proof

open Idealize.ShloMosaic Idealize.SL.Sem

/-- The word-level kernel runs to its end, faults nowhere and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification's token-major array of those arguments. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
